-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128 : Shape := ⟨3, ![32, 64, 128]⟩
abbrev S32x64x128x128 : Shape := ⟨4, ![32, 64, 128, 128]⟩
abbrev S_ : Shape := ⟨0, ![]⟩

class Facts : Prop where
  bcast_S_S32x64x128 : S_.BroadcastsInDim S32x64x128 (![] : Fin 0 → Fin S32x64x128.rank)
  reducesTo_S32x64x128_S_d0_1_2 : S32x64x128.ReducesTo [0, 1, 2] S_
  h_S_ : 0 < S_.numel
  bcast_S_S32x64x128x128 : S_.BroadcastsInDim S32x64x128x128 (![] : Fin 0 → Fin S32x64x128x128.rank)
  reducesTo_S32x64x128x128_S_d0_1_2_3 : S32x64x128x128.ReducesTo [0, 1, 2, 3] S_

variable [Facts]

def fn {F : FTy → Type} [FloatOps F] (main_arg0 : FVec F S32x64x128 .f32) (main_arg1 : FVec F S32x64x128x128 .f32) : IVec S_ 1 :=
  let main_v0 : FVec F S32x64x128 .f32 := Host.absf main_arg0
  let main_cst : FVec F S_ .f32 := constant S_ .f32 0x7F800000#32
  let main_v1 : FVec F S32x64x128 .f32 := broadcastInDim S32x64x128 ![] bcast_S_S32x64x128 main_cst
  let main_v2 : IVec S32x64x128 1 := cmpf .olt main_v0 main_v1
  let main_c : IVec S_ 1 := constantI S_ 1 1#1
  let main_v3 : IVec S_ 1 := (fun x v => Host.reduce IntOp.andi x v reducesTo_S32x64x128_S_d0_1_2 h_S_) main_v2 main_c
  let main_v4 : FVec F S32x64x128x128 .f32 := Host.absf main_arg1
  let main_cst_0 : FVec F S_ .f32 := constant S_ .f32 0x7F800000#32
  let main_v5 : FVec F S32x64x128x128 .f32 := broadcastInDim S32x64x128x128 ![] bcast_S_S32x64x128x128 main_cst_0
  let main_v6 : IVec S32x64x128x128 1 := cmpf .olt main_v4 main_v5
  let main_c_1 : IVec S_ 1 := constantI S_ 1 1#1
  let main_v7 : IVec S_ 1 := (fun x v => Host.reduce IntOp.andi x v reducesTo_S32x64x128x128_S_d0_1_2_3 h_S_) main_v6 main_c_1
  let main_v8 : IVec S_ 1 := andi main_v3 main_v7
  main_v8
-- ==== Kernel.lean ====
abbrev S32x64x128 : Shape := ⟨3, ![32, 64, 128]⟩
abbrev S32x64x128x128 : Shape := ⟨4, ![32, 64, 128, 128]⟩
abbrev S1x64x128 : Shape := ⟨3, ![1, 64, 128]⟩
abbrev S1x64x128x128 : Shape := ⟨4, ![1, 64, 128, 128]⟩
abbrev S64x128 : Shape := ⟨2, ![64, 128]⟩
abbrev S64x128x1 : Shape := ⟨3, ![64, 128, 1]⟩
abbrev S64x1x128 : Shape := ⟨3, ![64, 1, 128]⟩
abbrev S64x128x128 : Shape := ⟨3, ![64, 128, 128]⟩

abbrev nBuf : Space → Nat
  | .hbm => 4
  | .vmem => 8
  | .smem => 0
  | _ => 0

abbrev bufTy : (tb : Table) → Fin (tcTables nBuf tb) → BufTy
  | .hbm, ⟨0, _⟩ => ⟨S32x64x128, .f32⟩
  | .hbm, ⟨1, _⟩ => ⟨S32x64x128x128, .f32⟩
  | .hbm, ⟨2, _⟩ => ⟨S32x64x128, .f32⟩
  | .hbm, ⟨3, _⟩ => ⟨S32x64x128x128, .f32⟩
  | .local _ .vmem, ⟨0, _⟩ => ⟨S1x64x128, .f32⟩
  | .local _ .vmem, ⟨1, _⟩ => ⟨S1x64x128, .f32⟩
  | .local _ .vmem, ⟨2, _⟩ => ⟨S1x64x128x128, .f32⟩
  | .local _ .vmem, ⟨3, _⟩ => ⟨S1x64x128x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128x128, .f32⟩
  | .local _ .vmem, ⟨7, _⟩ => ⟨S1x64x128x128, .f32⟩
  | _, _ => ⟨S32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  natLt_1_32 : 1 < 32
  shapeCasts_S64x128_S1x64x128 : S64x128.ShapeCasts S1x64x128
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S32x64x128.size a
  hwx0_0 : ∀ i : grid0.Coords, EltTy.bits .f32 = 32 ∨ (Rect.block (s := S32x64x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x128.size a ≤ S32x64x128x128.size a
  hwx0_1 : ∀ i : grid0.Coords, EltTy.bits .f32 = 32 ∨ (Rect.block (s := S32x64x128x128) S1x64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S32x64x128.size a
  hwx0_2 : ∀ i : grid0.Coords, EltTy.bits .f32 = 32 ∨ (Rect.block (s := S32x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128x128.size a ≤ S32x64x128x128.size a
  hwx0_3 : ∀ i : grid0.Coords, EltTy.bits .f32 = 32 ∨ (Rect.block (s := S32x64x128x128) S1x64x128x128.size (cc0_transform_3 i) (hinb0_3 i)).WholeWords (EltTy.packing .f32)

variable [Facts₀]

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x64x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x64x128 : Shape := ⟨3, ![32, 64, 128]⟩
abbrev S32x64x128x128 : Shape := ⟨4, ![32, 64, 128, 128]⟩
abbrev S_ : Shape := ⟨0, ![]⟩
abbrev S32x64x128x1 : Shape := ⟨4, ![32, 64, 128, 1]⟩
abbrev S32x64x1x128 : Shape := ⟨4, ![32, 64, 1, 128]⟩

abbrev nBuf : Space → Nat
  | .hbm => 15
  | .vmem => 0
  | .smem => 0
  | _ => 0

abbrev bufTy : (tb : Table) → Fin (tcTables nBuf tb) → BufTy
  | .hbm, ⟨0, _⟩ => ⟨S32x64x128, .f32⟩
  | .hbm, ⟨1, _⟩ => ⟨S32x64x128x128, .f32⟩
  | .hbm, ⟨2, _⟩ => ⟨S_, .f32⟩
  | .hbm, ⟨3, _⟩ => ⟨S32x64x128, .f32⟩
  | .hbm, ⟨4, _⟩ => ⟨S32x64x128, .f32⟩
  | .hbm, ⟨5, _⟩ => ⟨S_, .f32⟩
  | .hbm, ⟨6, _⟩ => ⟨S32x64x128, .f32⟩
  | .hbm, ⟨7, _⟩ => ⟨S32x64x128, .i1⟩
  | .hbm, ⟨8, _⟩ => ⟨S32x64x128, .f32⟩
  | .hbm, ⟨9, _⟩ => ⟨S32x64x128x1, .f32⟩
  | .hbm, ⟨10, _⟩ => ⟨S32x64x1x128, .f32⟩
  | .hbm, ⟨11, _⟩ => ⟨S32x64x128x128, .f32⟩
  | .hbm, ⟨12, _⟩ => ⟨S32x64x128x128, .f32⟩
  | .hbm, ⟨13, _⟩ => ⟨S32x64x128x128, .f32⟩
  | .hbm, ⟨14, _⟩ => ⟨S32x64x128x128, .f32⟩
  | _, _ => ⟨S32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S32x64x128 : S_.BroadcastsInDim S32x64x128 (![] : Fin 0 → Fin S32x64x128.rank)
  bcast_S32x64x128_S32x64x128x1_0_1_2 : S32x64x128.BroadcastsInDim S32x64x128x1 (![0, 1, 2] : Fin 3 → Fin S32x64x128x1.rank)
  bcast_S32x64x128_S32x64x1x128_0_1_3 : S32x64x128.BroadcastsInDim S32x64x1x128 (![0, 1, 3] : Fin 3 → Fin S32x64x1x128.rank)
  bcast_S32x64x128x1_S32x64x128x128_0_1_2_3 : S32x64x128x1.BroadcastsInDim S32x64x128x128 (![0, 1, 2, 3] : Fin 4 → Fin S32x64x128x128.rank)
  bcast_S32x64x1x128_S32x64x128x128_0_1_2_3 : S32x64x1x128.BroadcastsInDim S32x64x128x128 (![0, 1, 2, 3] : Fin 4 → Fin S32x64x128x128.rank)

variable [Facts₀]

class Facts : Prop extends Facts₀ where

variable [Facts]
-- ==== Proof.GatedMoments.lean ====
/-
  The mathematics of the certificate, with no program in sight.

  A mean array `μ` of shape [32, 64, 128] and a covariance array `Σ` of shape [32, 64, 128, 128] go through a ReLU:
  the mean becomes `max μ 0`, and the covariance entry `Σ[b, c, r, s]` is kept exactly when BOTH the entries
  `μ[b, c, r]` and `μ[b, c, s]` of the mean are positive — it is multiplied by the product of their 0/1 gates
  (the derivative of the ReLU at each of the two entries).

  Here: the gate as an indicator on the extended reals; the two ways a program spells it — the comparison bit read
  as an unsigned integer, or the bit zero-extended to 32 bits and read as a signed one — both of which ARE the
  indicator; and the two result arrays as functions of `μ` and `Σ`, index by index.
-/
import Idealize.ShloMosaic.PureOps.Ideal
import Idealize.ShloMosaic.PureOps.Ideal.Laws
import Idealize.ShloMosaic.Lib.ValueIdx

noncomputable section

namespace Cert.GatedMoments

open Idealize.ShloMosaic

/-- The shape of the mean, `[batch, channel, feature]`. -/
abbrev SMean : Shape := ⟨3, ![32, 64, 128]⟩
/-- The shape of the covariance, `[batch, channel, feature, feature]`. -/
abbrev SCov : Shape := ⟨4, ![32, 64, 128, 128]⟩

/-- The gate of a ReLU at `x`: 1 where `x` is positive, 0 elsewhere (at `-∞` and at 0 it is 0, at `+∞` it is 1). -/
def gate (x : EReal) : EReal := if 0 < x then 1 else 0

/-- One bit, zero-extended to 32 bits and read as a SIGNED integer, is the bit read as a natural number: the
    extension leaves the sign bit clear. -/
theorem toInt_zeroExtend_bit (b : BitVec 1) : ((b.setWidth 32).toInt : Int) = (b.toNat : Int) := by
  have h : b.toNat < 2 := b.isLt
  rw [BitVec.toInt_eq_toNat_cond, BitVec.toNat_setWidth]
  have : b.toNat % 2 ^ 32 = b.toNat := Nat.mod_eq_of_lt (by omega)
  rw [this]
  split <;> omega

/-- The comparison `x > 0` read as an unsigned integer is the gate. -/
theorem uitofp_gt_zero (x : EReal) :
    FloatOps.uitofp (F := Ideal) .f32 (FloatOps.cmpf (F := Ideal) (φ := .f32) .ogt x (FloatOps.ofBits (F := Ideal) .f32 0x00000000#32))
      = gate x := by
  show (((Ideal.cmp .ogt x (Ideal.ofBits .f32 0x00000000#32)).toNat : ℝ) : EReal) = gate x
  rw [Ideal.ofBits_zero_f32]
  unfold gate Ideal.cmp
  by_cases h : (0 : EReal) < x <;> simp [h]

/-- The comparison `x > 0`, zero-extended to 32 bits and read as a signed integer, is the gate too. -/
theorem sitofp_zeroExtend_gt_zero (x : EReal) :
    FloatOps.sitofp (F := Ideal) .f32
        ((FloatOps.cmpf (F := Ideal) (φ := .f32) .ogt x (FloatOps.ofBits (F := Ideal) .f32 0x00000000#32)).setWidth 32)
      = gate x := by
  rw [← uitofp_gt_zero]
  show ((((Ideal.cmp .ogt x (Ideal.ofBits .f32 0x00000000#32)).setWidth 32).toInt : ℝ) : EReal)
    = (((Ideal.cmp .ogt x (Ideal.ofBits .f32 0x00000000#32)).toNat : ℝ) : EReal)
  rw [toInt_zeroExtend_bit]
  simp

/-- The entry `[b, c, r]` of the mean that the ROW `r` of the covariance entry `[b, c, r, s]` belongs to. -/
abbrev rowOf (i : SCov.Idx) : SMean.Idx := fun a => match a with
  | ⟨0, _⟩ => ⟨(i 0).val, (i 0).isLt⟩
  | ⟨1, _⟩ => ⟨(i 1).val, (i 1).isLt⟩
  | ⟨2, _⟩ => ⟨(i 2).val, (i 2).isLt⟩

/-- The entry `[b, c, s]` of the mean that the COLUMN `s` of the covariance entry `[b, c, r, s]` belongs to. -/
abbrev colOf (i : SCov.Idx) : SMean.Idx := fun a => match a with
  | ⟨0, _⟩ => ⟨(i 0).val, (i 0).isLt⟩
  | ⟨1, _⟩ => ⟨(i 1).val, (i 1).isLt⟩
  | ⟨2, _⟩ => ⟨(i 3).val, (i 3).isLt⟩

/-- The mean after the ReLU: `max μ 0`, entry by entry. -/
def reluMean (μ : SMean.Idx → EReal) : SMean.Idx → EReal := fun i => max (μ i) 0

/-- The covariance after the ReLU: `Σ[b, c, r, s] · (gate μ[b, c, r] · gate μ[b, c, s])`. -/
def gatedCov (μ : SMean.Idx → EReal) (σ : SCov.Idx → EReal) : SCov.Idx → EReal :=
  fun i => σ i * (gate (μ (rowOf i)) * gate (μ (colOf i)))

end Cert.GatedMoments

end
-- ==== Proof.KernelArrays.lean ====
/-
  What the idealized kernel leaves in its two result arrays.

  The grid runs over the batch axis: point `t` stages block `t` of the mean, a `[1, 64, 128]` slab, and block `t`
  of the covariance, a `[1, 64, 128, 128]` slab, and writes back one slab of each result. Within a slab the body
  computes `max μ 0` entry by entry, and for the covariance `Σ[c, r, s] · (g[c, r] · g[c, s])`, where `g` is the
  mean slab's comparison with zero, zero-extended and read as a signed integer — the ReLU's gate.

  So the slab a point writes back is the restriction to that slab of ONE function of the whole argument arrays,
  `reluMean` and `gatedCov`: the blocks of the inputs and of the outputs sit at the same batch index, and the row and
  the column of a covariance entry name entries of the SAME mean slab. The 32 slabs tile each result array, so
  after the run the arrays hold those functions everywhere.
-/
import proofs.«124603_j89541478187437_1_alg».proof.Proof.KernelIdealValue
import proofs.«124603_j89541478187437_1_alg».proof.Proof.GatedMoments

noncomputable section

namespace Cert.KernelIdeal.Arrays

open Cert.KernelIdeal Cert.KernelIdeal.Gen Cert.KernelIdeal.ValueP Cert.GatedMoments
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## A slab as a function of the slabs the body loads -/

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The mean slab the body stores: `max` of the loaded slab's entry and 0. -/
theorem meanSlab_apply (x0 : Vec Ideal S1x64x128 .f32) (x1 : Vec Ideal S1x64x128x128 .f32) (y : S1x64x128.Idx) :
    out0_2 x0 x1 y = max (x0 (ix2_0 y)) 0 := by
  unfold out0_2
  simp only [View.ld_unit_zero (S := S1x64x128) zeros3]
  rw [canon2_eq x0 y]
  show max (x0 (ix2_0 y)) (Ideal.ofBits .f32 0x00000000#32) = _
  rw [Ideal.ofBits_zero_f32]

/-- The covariance slab the body stores: the loaded entry times the gates of its row's and its column's mean entries. -/
theorem covSlab_apply (x0 : Vec Ideal S1x64x128 .f32) (x1 : Vec Ideal S1x64x128x128 .f32) (y : S1x64x128x128.Idx) :
    out0_3 x0 x1 y = x1 (ix3_0 y) * (gate (x0 (ix3_1 y)) * gate (x0 (ix3_2 y))) := by
  unfold out0_3
  simp only [View.ld_unit_zero (S := S1x64x128) zeros3, View.ld_unit_zero (S := S1x64x128x128) zeros4]
  rw [canon3_eq x1 x0 y]
  show x1 (ix3_0 y)
      * (FloatOps.sitofp (F := Ideal) .f32 ((FloatOps.cmpf (F := Ideal) (φ := .f32) .ogt (x0 (ix3_1 y)) (FloatOps.ofBits (F := Ideal) .f32 0x00000000#32)).setWidth 32)
        * FloatOps.sitofp (F := Ideal) .f32 ((FloatOps.cmpf (F := Ideal) (φ := .f32) .ogt (x0 (ix3_2 y)) (FloatOps.ofBits (F := Ideal) .f32 0x00000000#32)).setWidth 32))
    = _
  rw [sitofp_zeroExtend_gt_zero, sitofp_zeroExtend_gt_zero]

/-! ## The index maps, decided over the 32 grid points -/

/-- All four windows sit at the same batch index, and at block 0 along every other axis. -/
theorem idx_facts : ∀ t : Fin cfg0.N,
    win0_0.index t (0 : Fin 3) = win0_2.index t (0 : Fin 3)
    ∧ win0_0.index t (1 : Fin 3) = 0 ∧ win0_0.index t (2 : Fin 3) = 0
    ∧ win0_2.index t (1 : Fin 3) = 0 ∧ win0_2.index t (2 : Fin 3) = 0
    ∧ win0_1.index t (0 : Fin 4) = win0_3.index t (0 : Fin 4)
    ∧ win0_1.index t (1 : Fin 4) = 0 ∧ win0_1.index t (2 : Fin 4) = 0 ∧ win0_1.index t (3 : Fin 4) = 0
    ∧ win0_3.index t (1 : Fin 4) = 0 ∧ win0_3.index t (2 : Fin 4) = 0 ∧ win0_3.index t (3 : Fin 4) = 0
    ∧ win0_0.index t (0 : Fin 3) = win0_3.index t (0 : Fin 4) :=
  (by decide +kernel : ∀ t : Fin grid0.N, _)

/-- Every batch index is some point's mean block, -/
theorem mean_onto : ∀ q : Fin 32, ∃ t : Fin cfg0.N, win0_2.index t = ![q.val, 0, 0] :=
  (by decide +kernel : ∀ q : Fin 32, ∃ t : Fin grid0.N, win0_2.index t = ![q.val, 0, 0])

/-- and some point's covariance block. -/
theorem cov_onto : ∀ q : Fin 32, ∃ t : Fin cfg0.N, win0_3.index t = ![q.val, 0, 0, 0] :=
  (by decide +kernel : ∀ q : Fin 32, ∃ t : Fin grid0.N, win0_3.index t = ![q.val, 0, 0, 0])

/-! ## What a point writes back -/

/-- The mean argument as the region finds it, as a function on its literal index type. -/
abbrev meanArg (c : Dev nD) : SMean.Idx → EReal := V m c main_arg0
/-- The covariance argument as the region finds it, likewise. -/
abbrev covArg (c : Dev nD) : SCov.Idx → EReal := V m c main_arg1

/-- Point `t` writes back slab `t` of `reluMean` of the mean array. -/
theorem meanFlushed (c : Dev nD) (t : Fin cfg0.N) :
    (dats m 0 c).flushed 2 t = ((cfg0.win 2).blk t).view.read (Elt Ideal) (reluMean (meanArg m c)) := by
  rw [flushed2 m c t]
  obtain ⟨e0, e1, e2, e3, e4, -⟩ := idx_facts t
  funext j
  show out0_2 (iblk m c 0 t) (iblk m c 1 t) j = reluMean (meanArg m c) (((cfg0.win 2).blk t).view.emb j)
  refine (meanSlab_apply (iblk m c 0 t) (iblk m c 1 t) j).trans ?_
  show max (meanArg m c (((cfg0.win 0).blk t).view.emb (ix2_0 j))) 0 = _
  have h0 : ((cfg0.win 0).blk t).view.emb (ix2_0 j) = ((cfg0.win 2).blk t).view.emb j := by
    funext a; apply Fin.ext
    match a with
    | ⟨0, _⟩ => show win0_0.index t (0 : Fin 3) * 1 + 1 * 0 = win0_2.index t (0 : Fin 3) * 1 + 1 * (j 0).val; have hj : (j 0).val < 1 := (j 0).isLt; omega
    | ⟨1, _⟩ => show win0_0.index t (1 : Fin 3) * 64 + 1 * (j 1).val = win0_2.index t (1 : Fin 3) * 64 + 1 * (j 1).val; omega
    | ⟨2, _⟩ => show win0_0.index t (2 : Fin 3) * 128 + 1 * (j 2).val = win0_2.index t (2 : Fin 3) * 128 + 1 * (j 2).val; omega
  rw [h0]
  rfl

/-- Point `t` writes back slab `t` of `gatedCov` of the two argument arrays: the row and the column of an entry of the
    slab are entries of the mean's slab at the same batch index. -/
theorem covFlushed (c : Dev nD) (t : Fin cfg0.N) :
    (dats m 0 c).flushed 3 t = ((cfg0.win 3).blk t).view.read (Elt Ideal) (gatedCov (meanArg m c) (covArg m c)) := by
  rw [flushed3 m c t]
  obtain ⟨e0, e1, e2, e3, e4, e5, e6, e7, e8, e9, e10, e11, e12⟩ := idx_facts t
  funext j
  show out0_3 (iblk m c 0 t) (iblk m c 1 t) j = gatedCov (meanArg m c) (covArg m c) (((cfg0.win 3).blk t).view.emb j)
  refine (covSlab_apply (iblk m c 0 t) (iblk m c 1 t) j).trans ?_
  show covArg m c (((cfg0.win 1).blk t).view.emb (ix3_0 j))
      * (gate (meanArg m c (((cfg0.win 0).blk t).view.emb (ix3_1 j))) * gate (meanArg m c (((cfg0.win 0).blk t).view.emb (ix3_2 j))))
    = _
  have hj0 : (j 0).val < 1 := (j 0).isLt
  have h0 : ((cfg0.win 1).blk t).view.emb (ix3_0 j) = ((cfg0.win 3).blk t).view.emb j := by
    funext a; apply Fin.ext
    match a with
    | ⟨0, _⟩ => show win0_1.index t (0 : Fin 4) * 1 + 1 * 0 = win0_3.index t (0 : Fin 4) * 1 + 1 * (j 0).val; omega
    | ⟨1, _⟩ => show win0_1.index t (1 : Fin 4) * 64 + 1 * (j 1).val = win0_3.index t (1 : Fin 4) * 64 + 1 * (j 1).val; omega
    | ⟨2, _⟩ => show win0_1.index t (2 : Fin 4) * 128 + 1 * (j 2).val = win0_3.index t (2 : Fin 4) * 128 + 1 * (j 2).val; omega
    | ⟨3, _⟩ => show win0_1.index t (3 : Fin 4) * 128 + 1 * (j 3).val = win0_3.index t (3 : Fin 4) * 128 + 1 * (j 3).val; omega
  have h1 : ((cfg0.win 0).blk t).view.emb (ix3_1 j) = rowOf (((cfg0.win 3).blk t).view.emb j) := by
    funext a; apply Fin.ext
    match a with
    | ⟨0, _⟩ => show win0_0.index t (0 : Fin 3) * 1 + 1 * 0 = win0_3.index t (0 : Fin 4) * 1 + 1 * (j 0).val; omega
    | ⟨1, _⟩ => show win0_0.index t (1 : Fin 3) * 64 + 1 * (j 1).val = win0_3.index t (1 : Fin 4) * 64 + 1 * (j 1).val; omega
    | ⟨2, _⟩ => show win0_0.index t (2 : Fin 3) * 128 + 1 * (j 2).val = win0_3.index t (2 : Fin 4) * 128 + 1 * (j 2).val; omega
  have h2 : ((cfg0.win 0).blk t).view.emb (ix3_2 j) = colOf (((cfg0.win 3).blk t).view.emb j) := by
    funext a; apply Fin.ext
    match a with
    | ⟨0, _⟩ => show win0_0.index t (0 : Fin 3) * 1 + 1 * 0 = win0_3.index t (0 : Fin 4) * 1 + 1 * (j 0).val; omega
    | ⟨1, _⟩ => show win0_0.index t (1 : Fin 3) * 64 + 1 * (j 1).val = win0_3.index t (1 : Fin 4) * 64 + 1 * (j 1).val; omega
    | ⟨2, _⟩ => show win0_0.index t (2 : Fin 3) * 128 + 1 * (j 3).val = win0_3.index t (3 : Fin 4) * 128 + 1 * (j 3).val; omega
  rw [h0, h1, h2]
  rfl

/-! ## The slabs tile the arrays -/

/-- An index of the mean's result array is in point `t`'s slab iff each coordinate is in the slab's range on its axis. -/
theorem mem_meanSlab (t : Fin cfg0.N) (i : S32x64x128.Idx) :
    i ∈ ((cfg0.win 2).blk t).view.set ↔ ∀ a : Fin 3, win0_2.index t a * S1x64x128.size a ≤ (i a).val ∧ (i a).val < win0_2.index t a * S1x64x128.size a + S1x64x128.size a := by
  show i ∈ ((View.whole main_v0_0).slice (win0_2.rect t)).set ↔ _
  rw [View.set_slice_whole, Rect.mem_set_unit]
  exact Iff.rfl

/-- The same for the covariance's result array. -/
theorem mem_covSlab (t : Fin cfg0.N) (i : S32x64x128x128.Idx) :
    i ∈ ((cfg0.win 3).blk t).view.set ↔ ∀ a : Fin 4, win0_3.index t a * S1x64x128x128.size a ≤ (i a).val ∧ (i a).val < win0_3.index t a * S1x64x128x128.size a + S1x64x128x128.size a := by
  show i ∈ ((View.whole main_v0_1).slice (win0_3.rect t)).set ↔ _
  rw [View.set_slice_whole, Rect.mem_set_unit]
  exact Iff.rfl

/-- Every entry of the mean's result array is in the slab of the point at its batch index. -/
theorem meanCover (i : S32x64x128.Idx) : ∃ t : Fin cfg0.N, (cfg0.win 2).flush t = true ∧ i ∈ ((cfg0.win 2).blk t).view.set := by
  have hi0 : (i 0).val < 32 := (i 0).isLt
  have hi1 : (i 1).val < 64 := (i 1).isLt
  have hi2 : (i 2).val < 128 := (i 2).isLt
  obtain ⟨t, ht⟩ := mean_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_meanSlab]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 128 ≤ (i 2).val ∧ (i 2).val < win0_2.index t (2 : Fin 3) * 128 + 128; omega

/-- Every entry of the covariance's result array is in the slab of the point at its batch index. -/
theorem covCover (i : S32x64x128x128.Idx) : ∃ t : Fin cfg0.N, (cfg0.win 3).flush t = true ∧ i ∈ ((cfg0.win 3).blk t).view.set := by
  have hi0 : (i 0).val < 32 := (i 0).isLt
  have hi1 : (i 1).val < 64 := (i 1).isLt
  have hi2 : (i 2).val < 128 := (i 2).isLt
  have hi3 : (i 3).val < 128 := (i 3).isLt
  obtain ⟨t, ht⟩ := cov_onto ⟨(i 0).val, hi0⟩
  have q0 : win0_3.index t (0 : Fin 4) = (i 0).val := congrFun ht 0
  have q1 : win0_3.index t (1 : Fin 4) = 0 := congrFun ht 1
  have q2 : win0_3.index t (2 : Fin 4) = 0 := congrFun ht 2
  have q3 : win0_3.index t (3 : Fin 4) = 0 := congrFun ht 3
  refine ⟨t, flush0_3 t, ?_⟩
  rw [mem_covSlab]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 64 ≤ (i 1).val ∧ (i 1).val < win0_3.index t (1 : Fin 4) * 64 + 64; omega
  | ⟨2, _⟩ => show win0_3.index t (2 : Fin 4) * 128 ≤ (i 2).val ∧ (i 2).val < win0_3.index t (2 : Fin 4) * 128 + 128; omega
  | ⟨3, _⟩ => show win0_3.index t (3 : Fin 4) * 128 ≤ (i 3).val ∧ (i 3).val < win0_3.index t (3 : Fin 4) * 128 + 128; omega

/-! ## The arrays after the run -/

/-- The mean's result array after the run is `reluMean` of the mean argument. -/
theorem meanArray (c : Dev nD) : (dats m 0 c).arrAt 2 cfg0.N = reluMean (m ((c : Thread nD τ).loc main_arg0)) :=
  (dats m 0 c).arrAt_eq_of_cover 2 (reluMean (meanArg m c)) (fun t _ => meanFlushed m c t) meanCover

/-- The covariance's result array after the run is `gatedCov` of the two arguments. -/
theorem covArray (c : Dev nD) :
    (dats m 0 c).arrAt 3 cfg0.N = gatedCov (m ((c : Thread nD τ).loc main_arg0)) (m ((c : Thread nD τ).loc main_arg1)) :=
  (dats m 0 c).arrAt_eq_of_cover 3 (gatedCov (meanArg m c) (covArg m c)) (fun t _ => covFlushed m c t) covCover

/-- The idealized kernel's run: it ends with the two results at `reluMean` and `gatedCov` of its arguments, which it leaves as they were. -/
theorem run : θ_run defs (onTc (τ := τ) (main (F := Ideal))) ⟨m, fun _ => 0, ρ⟩ fun r => ∀ c : Dev nD,
      r.2.mem ((c : Thread nD τ).loc main_v0_0) = reluMean (m ((c : Thread nD τ).loc main_arg0))
      ∧ r.2.mem ((c : Thread nD τ).loc main_v0_1) = gatedCov (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (meanArray m c), (h c).2.1.trans (covArray m c), (h c).2.2.1, (h c).2.2.2⟩)
    (run_blocks m ρ)

end Cert.KernelIdeal.Arrays

end
-- ==== Proof.ReferenceArrays.lean ====
/-
  What the idealized reference computes, read one operation at a time.

  Its first result is `max μ 0` (the outlined ReLU: a maximum with a broadcast zero). Its second is
  `Σ · (M₁ · M₂)`, where `M = convert (μ > 0)` is the comparison bit read as an unsigned integer, `M₁` is `M`
  given a unit last axis and broadcast along it — so `M₁[b, c, r, s] = M[b, c, r]` — and `M₂` is `M` given a unit
  third axis and broadcast along that — so `M₂[b, c, r, s] = M[b, c, s]`. These are `reluMean` and `gatedCov`.
-/
import proofs.«124603_j89541478187437_1_alg».proof.Proof.Gen.ReferenceIdeal.Read
import proofs.«124603_j89541478187437_1_alg».proof.Proof.GatedMoments

noncomputable section

namespace Cert.ReferenceIdeal.Arrays

open Cert.ReferenceIdeal Cert.ReferenceIdeal.Gen Cert.ReferenceIdeal.Read Cert.GatedMoments
open Idealize.ShloMosaic

/-- Through the two broadcasts that stretch the last axis, an entry `[b, c, r, s]` reads the mean's entry `[b, c, r]`. -/
theorem through_last (i : S32x64x128x128.Idx) : idx_main_v4 (idx_main_v6 i) = rowOf i :=
  funext fun a => Fin.ext (by match a with | ⟨0, _⟩ => rfl | ⟨1, _⟩ => rfl | ⟨2, _⟩ => rfl)

/-- Through the two broadcasts that stretch the third axis, it reads the mean's entry `[b, c, s]`. -/
theorem through_third (i : S32x64x128x128.Idx) : idx_main_v5 (idx_main_v7 i) = colOf i :=
  funext fun a => Fin.ext (by match a with | ⟨0, _⟩ => rfl | ⟨1, _⟩ => rfl | ⟨2, _⟩ => rfl)

/-- The reference's first result is `reluMean` of its first argument. -/
theorem mean_eq (x0 : (⟨S32x64x128, .f32⟩ : BufTy).Contents (Elt Ideal)) :
    val_main_v0 (F := Ideal) x0 = reluMean x0 := by
  funext i
  rw [val_main_v0_apply, val_main_call0_v0_apply, val_main_call0_cst_apply]
  show max (x0 i) (Ideal.ofBits .f32 0x00000000#32) = max (x0 i) 0
  rw [Ideal.ofBits_zero_f32]

/-- The reference's second result is `gatedCov` of its two arguments. -/
theorem cov_eq (x0 : (⟨S32x64x128, .f32⟩ : BufTy).Contents (Elt Ideal)) (x1 : (⟨S32x64x128x128, .f32⟩ : BufTy).Contents (Elt Ideal)) :
    val_main_v9 (F := Ideal) x0 x1 = gatedCov x0 x1 := by
  funext i
  simp only [val_main_v9_apply, val_main_v8_apply, val_main_v6_apply, val_main_v7_apply, val_main_v4_apply, val_main_v5_apply,
    val_main_v3_apply, val_main_v2_apply, val_main_v1_apply, val_main_cst_apply, through_last, through_third]
  show x1 i
      * (FloatOps.uitofp (F := Ideal) .f32 (FloatOps.cmpf (F := Ideal) (φ := .f32) .ogt (x0 (rowOf i)) (FloatOps.ofBits (F := Ideal) .f32 0x00000000#32))
        * FloatOps.uitofp (F := Ideal) .f32 (FloatOps.cmpf (F := Ideal) (φ := .f32) .ogt (x0 (colOf i)) (FloatOps.ofBits (F := Ideal) .f32 0x00000000#32)))
    = x1 i * (gate (x0 (rowOf i)) * gate (x0 (colOf i)))
  rw [uitofp_gt_zero, uitofp_gt_zero]

end Cert.ReferenceIdeal.Arrays

end
-- ==== Proof.lean ====
/-
  A ReLU applied to a Gaussian's moments: the mean `μ` of shape [32, 64, 128] becomes `max μ 0`, and the covariance
  `Σ` of shape [32, 64, 128, 128] is gated on both sides, `Σ[b, c, r, s] · (g[b, c, r] · g[b, c, s])`, where
  `g = 1` where `μ` is positive and 0 elsewhere.

  The kernel walks the batch axis one slab at a time and spells the gate as the comparison bit zero-extended to 32 bits
  and read as a signed integer; the reference works on the whole arrays and spells it as the bit read as an
  unsigned integer, stretched along the last and along the third axis by broadcasts. Over the extended reals both
  spellings are the indicator of `μ > 0` (Proof/GatedMoments.lean), so both programs end with `reluMean μ` and
  `gatedCov μ Σ` in their results: the kernel because its 32 slabs are restrictions of those two functions and tile
  the arrays (Proof/KernelArrays.lean), the reference operation by operation (Proof/ReferenceArrays.lean). No law is
  used that fails at an infinity, so the inputs' finiteness is never opened.

  The three frames are the programs' runs with the results forgotten; the idealization rewrote nothing, so the
  kernel's idealized text is its own text read over the extended reals.
-/
import proofs.«124603_j89541478187437_1_alg».proof.Defs
import proofs.«124603_j89541478187437_1_alg».proof.Proof.Gen.Kernel
import proofs.«124603_j89541478187437_1_alg».proof.Proof.Gen.Kernel.Skeleton
import proofs.«124603_j89541478187437_1_alg».proof.Proof.Gen.Kernel.Launch
import proofs.«124603_j89541478187437_1_alg».proof.Proof.Gen.Kernel.Points
import proofs.«124603_j89541478187437_1_alg».proof.Proof.Gen.Kernel.Frame
import proofs.«124603_j89541478187437_1_alg».proof.Proof.Gen.KernelIdeal
import proofs.«124603_j89541478187437_1_alg».proof.Proof.Gen.KernelIdeal.Skeleton
import proofs.«124603_j89541478187437_1_alg».proof.Proof.Gen.KernelIdeal.Launch
import proofs.«124603_j89541478187437_1_alg».proof.Proof.Gen.KernelIdeal.Points
import proofs.«124603_j89541478187437_1_alg».proof.Proof.Gen.KernelIdeal.Frame
import proofs.«124603_j89541478187437_1_alg».proof.Proof.Gen.ReferenceIdeal
import proofs.«124603_j89541478187437_1_alg».proof.Proof.Gen.ReferenceIdeal.Run
import proofs.«124603_j89541478187437_1_alg».proof.Proof.Gen.ReferenceIdeal.Read
import proofs.«124603_j89541478187437_1_alg».proof.Proof.Gen.Pre_finite_inputs
import proofs.«124603_j89541478187437_1_alg».proof.Proof.KernelArrays
import proofs.«124603_j89541478187437_1_alg».proof.Proof.ReferenceArrays
import Idealize.ShloMosaic.Adequacy
import Idealize.ShloMosaic.Init

noncomputable section

namespace Cert.Proof

open Idealize.ShloMosaic Idealize.SL.Sem Cert.Kernel

/-- The reference's frame: its run, with the two results forgotten. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- From memories that agree on `μ` and `Σ`, both idealized programs end with `reluMean μ` and `gatedCov μ Σ`. -/
theorem algebraic : Cert.algebraic_KernelIdeal_ReferenceIdeal := by
  intro m ρ m' ρ' _ hagree
  refine ⟨fun c => Cert.GatedMoments.reluMean (m ((c.tc : Thread Cert.KernelIdeal.nD Cert.KernelIdeal.τ).loc Cert.KernelIdeal.main_arg0)),
    fun c => Cert.GatedMoments.gatedCov (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arrays.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v0_eq, Cert.ReferenceIdeal.Arrays.mean_eq, (hagree c).1]
  · rw [(h c).2.1, Cert.ReferenceIdeal.Read.val_main_v9_eq, Cert.ReferenceIdeal.Arrays.cov_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
